-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S131072x64 .f32) (main_arg1 : FVec F S27x64x64 .f32) (main_arg2 : FVec F S64 .f32) (main_arg3 : IVec S27x32768 32) (main_arg4 : IVec S27x32768 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩
abbrev S27x32768x1 : Shape := ⟨3, ![27, 32768, 1]⟩
abbrev S27x32768x64 : Shape := ⟨3, ![27, 32768, 64]⟩
abbrev S1x32768x64 : Shape := ⟨3, ![1, 32768, 64]⟩
abbrev S1x64x64 : Shape := ⟨3, ![1, 64, 64]⟩
abbrev S32768x64 : Shape := ⟨2, ![32768, 64]⟩
abbrev S64x64 : Shape := ⟨2, ![64, 64]⟩
abbrev S884736 : Shape := ⟨1, ![884736]⟩
abbrev S884736x64 : Shape := ⟨2, ![884736, 64]⟩
abbrev S884736x1 : Shape := ⟨2, ![884736, 1]⟩
abbrev S1x64 : Shape := ⟨2, ![1, 64]⟩

abbrev nBuf : Space → Nat
  | .hbm => 48
  | .vmem => 6
  | .smem => 0
  | _ => 0

abbrev bufTy : (tb : Table) → Fin (tcTables nBuf tb) → BufTy
  | .hbm, ⟨0, _⟩ => ⟨S131072x64, .f32⟩
  | .hbm, ⟨1, _⟩ => ⟨S27x64x64, .f32⟩
  | .hbm, ⟨2, _⟩ => ⟨S64, .f32⟩
  | .hbm, ⟨3, _⟩ => ⟨S27x32768, .i32⟩
  | .hbm, ⟨4, _⟩ => ⟨S27x32768, .i32⟩
  | .hbm, ⟨5, _⟩ => ⟨S_, .i32⟩
  | .hbm, ⟨6, _⟩ => ⟨S27x32768, .i32⟩
  | .hbm, ⟨7, _⟩ => ⟨S27x32768, .i1⟩
  | .hbm, ⟨8, _⟩ => ⟨S_, .i32⟩
  | .hbm, ⟨9, _⟩ => ⟨S_, .i32⟩
  | .hbm, ⟨10, _⟩ => ⟨S27x32768, .i32⟩
  | .hbm, ⟨11, _⟩ => ⟨S27x32768, .i32⟩
  | .hbm, ⟨12, _⟩ => ⟨S_, .i32⟩
  | .hbm, ⟨13, _⟩ => ⟨S27x32768, .i32⟩
  | .hbm, ⟨14, _⟩ => ⟨S27x32768, .i1⟩
  | .hbm, ⟨15, _⟩ => ⟨S_, .i32⟩
  | .hbm, ⟨16, _⟩ => ⟨S27x32768, .i32⟩
  | .hbm, ⟨17, _⟩ => ⟨S27x32768, .i32⟩
  | .hbm, ⟨18, _⟩ => ⟨S27x32768, .i32⟩
  | .hbm, ⟨19, _⟩ => ⟨S27x32768x1, .i32⟩
  | .hbm, ⟨20, _⟩ => ⟨S27x32768x64, .f32⟩
  | .hbm, ⟨21, _⟩ => ⟨S27x32768x1, .i1⟩
  | .hbm, ⟨22, _⟩ => ⟨S27x32768x1, .f32⟩
  | .hbm, ⟨23, _⟩ => ⟨S27x32768x64, .f32⟩
  | .hbm, ⟨24, _⟩ => ⟨S27x32768x64, .f32⟩
  | .hbm, ⟨25, _⟩ => ⟨S27x32768x64, .bf16⟩
  | .hbm, ⟨26, _⟩ => ⟨S27x64x64, .bf16⟩
  | .hbm, ⟨27, _⟩ => ⟨S27x32768x64, .f32⟩
  | .hbm, ⟨28, _⟩ => ⟨S_, .i32⟩
  | .hbm, ⟨29, _⟩ => ⟨S_, .i32⟩
  | .hbm, ⟨30, _⟩ => ⟨S27x32768, .i32⟩
  | .hbm, ⟨31, _⟩ => ⟨S27x32768, .i32⟩
  | .hbm, ⟨32, _⟩ => ⟨S884736, .i32⟩
  | .hbm, ⟨33, _⟩ => ⟨S_, .f32⟩
  | .hbm, ⟨34, _⟩ => ⟨S131072x64, .f32⟩
  | .hbm, ⟨35, _⟩ => ⟨S884736x64, .f32⟩
  | .hbm, ⟨36, _⟩ => ⟨S_, .i32⟩
  | .hbm, ⟨37, _⟩ => ⟨S884736, .i32⟩
  | .hbm, ⟨38, _⟩ => ⟨S884736, .i1⟩
  | .hbm, ⟨39, _⟩ => ⟨S_, .i32⟩
  | .hbm, ⟨40, _⟩ => ⟨S884736, .i32⟩
  | .hbm, ⟨41, _⟩ => ⟨S884736, .i32⟩
  | .hbm, ⟨42, _⟩ => ⟨S884736, .i32⟩
  | .hbm, ⟨43, _⟩ => ⟨S884736x1, .i32⟩
  | .hbm, ⟨44, _⟩ => ⟨S131072x64, .f32⟩
  | .hbm, ⟨45, _⟩ => ⟨S1x64, .f32⟩
  | .hbm, ⟨46, _⟩ => ⟨S131072x64, .f32⟩
  | .hbm, ⟨47, _⟩ => ⟨S131072x64, .f32⟩
  | .local _ .vmem, ⟨0, _⟩ => ⟨S1x32768x64, .bf16⟩
  | .local _ .vmem, ⟨1, _⟩ => ⟨S1x32768x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x32768x64, .f32⟩
  | .local _ .vmem, ⟨5, _⟩ => ⟨S1x32768x64, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32768x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S27x32768 : S_.BroadcastsInDim S27x32768 (![] : Fin 0 → Fin S27x32768.rank)
  bcast_S27x32768_S27x32768x1_0_1 : S27x32768.BroadcastsInDim S27x32768x1 (![0, 1] : Fin 2 → Fin S27x32768x1.rank)
  bcast_S27x32768x1_S27x32768x64_0_1_2 : S27x32768x1.BroadcastsInDim S27x32768x64 (![0, 1, 2] : Fin 3 → Fin S27x32768x64.rank)
  bitsLt_bf16_f32 : FTy.bits .bf16 < FTy.bits .f32
  inb_S1x32768x64_S1x32768x64_0_0_0 : ∀ a, (![0, 0, 0] : Fin 3 → Nat) a + S1x32768x64.size a ≤ S1x32768x64.size a
  h_S1x32768x64 : 0 < S1x32768x64.numel
  shapeCasts_S1x32768x64_S32768x64 : S1x32768x64.ShapeCasts S32768x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S32768x64_S1x32768x64 : S32768x64.ShapeCasts S1x32768x64
  shapeCasts_S27x32768_S884736 : S27x32768.ShapeCasts S884736
  bcast_S_S131072x64 : S_.BroadcastsInDim S131072x64 (![] : Fin 0 → Fin S131072x64.rank)
  shapeCasts_S27x32768x64_S884736x64 : S27x32768x64.ShapeCasts S884736x64
  bcast_S_S884736 : S_.BroadcastsInDim S884736 (![] : Fin 0 → Fin S884736.rank)
  bcast_S884736_S884736x1_0 : S884736.BroadcastsInDim S884736x1 (![0] : Fin 1 → Fin S884736x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  gather_S131072x64_S27x32768x1_S27x32768x64_2_0_n_n_0_2_164_wf : GatherDims.WF S131072x64 S27x32768x1 S27x32768x64 [2] [0] [] [0] [] 2 ![1, 64]
  dot_S32768x64_S64x64_S32768x64_1_0_0_1_n_n_wf : DotDims.WF S32768x64 S64x64 S32768x64 [1] [0] [0] [1] [] []
  scatter_S131072x64_S884736x1_S884736x64_1_0_0_1_wf : ScatterDims.WF S131072x64 S884736x1 S884736x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768x64.size a ≤ S27x32768x64.size a
  hwx0_0 : ∀ i : grid0.Coords, EltTy.bits .bf16 = 32 ∨ (Rect.block (s := S27x32768x64) S1x32768x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768x64.size a ≤ S27x32768x64.size a
  hwx0_2 : ∀ i : grid0.Coords, EltTy.bits .f32 = 32 ∨ (Rect.block (s := S27x32768x64) S1x32768x64.size (cc0_transform_2 i) (hinb0_2 i)).WholeWords (EltTy.packing .f32)

variable [Facts₀]

def gather_S131072x64_S27x32768x1_S27x32768x64_2_0_n_n_0_2_164 : GatherDims S131072x64 S27x32768x1 S27x32768x64 where
  offsetDims := [2]
  collapsedSliceDims := [0]
  operandBatchingDims := []
  startIndicesBatchingDims := []
  startIndexMap := [0]
  indexVectorDim := 2
  sliceSizes := ![1, 64]
  wf := gather_S131072x64_S27x32768x1_S27x32768x64_2_0_n_n_0_2_164_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def scatter_S131072x64_S884736x1_S884736x64_1_0_0_1 : ScatterDims S131072x64 S884736x1 S884736x64 where
  updateWindowDims := [1]
  insertedWindowDims := [0]
  scatterDimsToOperandDims := [0]
  indexVectorDim := 1
  wf := scatter_S131072x64_S884736x1_S884736x64_1_0_0_1_wf

abbrev win0_0 : Pipeline.Window sig grid0 :=
  Pipeline.Window.ofSpec (Memref.whole main_v14) S1x32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x32768x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S27x64x64 : Shape := ⟨3, ![27, 64, 64]⟩
abbrev S64 : Shape := ⟨1, ![64]⟩
abbrev S27x32768 : Shape := ⟨2, ![27, 32768]⟩
abbrev S_ : Shape := ⟨0, ![]⟩
abbrev S27x32768x1 : Shape := ⟨3, ![27, 32768, 1]⟩
abbrev S27x32768x64 : Shape := ⟨3, ![27, 32768, 64]⟩
abbrev S884736 : Shape := ⟨1, ![884736]⟩
abbrev S884736x64 : Shape := ⟨2, ![884736, 64]⟩
abbrev S884736x1 : Shape := ⟨2, ![884736, 1]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S27x64x64, .f32⟩
  | .hbm, ⟨2, _⟩ => ⟨S64, .f32⟩
  | .hbm, ⟨3, _⟩ => ⟨S27x32768, .i32⟩
  | .hbm, ⟨4, _⟩ => ⟨S27x32768, .i32⟩
  | .hbm, ⟨5, _⟩ => ⟨S_, .i32⟩
  | .hbm, ⟨6, _⟩ => ⟨S27x32768, .i32⟩
  | .hbm, ⟨7, _⟩ => ⟨S27x32768, .i1⟩
  | .hbm, ⟨8, _⟩ => ⟨S_, .i32⟩
  | .hbm, ⟨9, _⟩ => ⟨S_, .i32⟩
  | .hbm, ⟨10, _⟩ => ⟨S27x32768, .i32⟩
  | .hbm, ⟨11, _⟩ => ⟨S27x32768, .i32⟩
  | .hbm, ⟨12, _⟩ => ⟨S_, .i32⟩
  | .hbm, ⟨13, _⟩ => ⟨S27x32768, .i32⟩
  | .hbm, ⟨14, _⟩ => ⟨S27x32768, .i1⟩
  | .hbm, ⟨15, _⟩ => ⟨S_, .i32⟩
  | .hbm, ⟨16, _⟩ => ⟨S27x32768, .i32⟩
  | .hbm, ⟨17, _⟩ => ⟨S27x32768, .i32⟩
  | .hbm, ⟨18, _⟩ => ⟨S27x32768, .i32⟩
  | .hbm, ⟨19, _⟩ => ⟨S27x32768x1, .i32⟩
  | .hbm, ⟨20, _⟩ => ⟨S27x32768x64, .f32⟩
  | .hbm, ⟨21, _⟩ => ⟨S27x32768x1, .i1⟩
  | .hbm, ⟨22, _⟩ => ⟨S27x32768x1, .f32⟩
  | .hbm, ⟨23, _⟩ => ⟨S27x32768x64, .f32⟩
  | .hbm, ⟨24, _⟩ => ⟨S27x32768x64, .f32⟩
  | .hbm, ⟨25, _⟩ => ⟨S27x32768x64, .f32⟩
  | .hbm, ⟨26, _⟩ => ⟨S_, .i32⟩
  | .hbm, ⟨27, _⟩ => ⟨S_, .i32⟩
  | .hbm, ⟨28, _⟩ => ⟨S27x32768, .i32⟩
  | .hbm, ⟨29, _⟩ => ⟨S27x32768, .i32⟩
  | .hbm, ⟨30, _⟩ => ⟨S884736, .i32⟩
  | .hbm, ⟨31, _⟩ => ⟨S_, .f32⟩
  | .hbm, ⟨32, _⟩ => ⟨S131072x64, .f32⟩
  | .hbm, ⟨33, _⟩ => ⟨S884736x64, .f32⟩
  | .hbm, ⟨34, _⟩ => ⟨S_, .i32⟩
  | .hbm, ⟨35, _⟩ => ⟨S884736, .i32⟩
  | .hbm, ⟨36, _⟩ => ⟨S884736, .i1⟩
  | .hbm, ⟨37, _⟩ => ⟨S_, .i32⟩
  | .hbm, ⟨38, _⟩ => ⟨S884736, .i32⟩
  | .hbm, ⟨39, _⟩ => ⟨S884736, .i32⟩
  | .hbm, ⟨40, _⟩ => ⟨S884736, .i32⟩
  | .hbm, ⟨41, _⟩ => ⟨S884736x1, .i32⟩
  | .hbm, ⟨42, _⟩ => ⟨S131072x64, .f32⟩
  | .hbm, ⟨43, _⟩ => ⟨S1x64, .f32⟩
  | .hbm, ⟨44, _⟩ => ⟨S131072x64, .f32⟩
  | .hbm, ⟨45, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S27x32768 : S_.BroadcastsInDim S27x32768 (![] : Fin 0 → Fin S27x32768.rank)
  bcast_S27x32768_S27x32768x1_0_1 : S27x32768.BroadcastsInDim S27x32768x1 (![0, 1] : Fin 2 → Fin S27x32768x1.rank)
  bcast_S27x32768x1_S27x32768x64_0_1_2 : S27x32768x1.BroadcastsInDim S27x32768x64 (![0, 1, 2] : Fin 3 → Fin S27x32768x64.rank)
  shapeCasts_S27x32768_S884736 : S27x32768.ShapeCasts S884736
  bcast_S_S131072x64 : S_.BroadcastsInDim S131072x64 (![] : Fin 0 → Fin S131072x64.rank)
  shapeCasts_S27x32768x64_S884736x64 : S27x32768x64.ShapeCasts S884736x64
  bcast_S_S884736 : S_.BroadcastsInDim S884736 (![] : Fin 0 → Fin S884736.rank)
  bcast_S884736_S884736x1_0 : S884736.BroadcastsInDim S884736x1 (![0] : Fin 1 → Fin S884736x1.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  gather_S131072x64_S27x32768x1_S27x32768x64_2_0_n_n_0_2_164_wf : GatherDims.WF S131072x64 S27x32768x1 S27x32768x64 [2] [0] [] [0] [] 2 ![1, 64]
  dot_S27x32768x64_S27x64x64_S27x32768x64_2_1_1_2_0_0_wf : DotDims.WF S27x32768x64 S27x64x64 S27x32768x64 [2] [1] [1] [2] [0] [0]
  scatter_S131072x64_S884736x1_S884736x64_1_0_0_1_wf : ScatterDims.WF S131072x64 S884736x1 S884736x64 [1] [0] [0] 1

variable [Facts₀]

def gather_S131072x64_S27x32768x1_S27x32768x64_2_0_n_n_0_2_164 : GatherDims S131072x64 S27x32768x1 S27x32768x64 where
  offsetDims := [2]
  collapsedSliceDims := [0]
  operandBatchingDims := []
  startIndicesBatchingDims := []
  startIndexMap := [0]
  indexVectorDim := 2
  sliceSizes := ![1, 64]
  wf := gather_S131072x64_S27x32768x1_S27x32768x64_2_0_n_n_0_2_164_wf
def dot_S27x32768x64_S27x64x64_S27x32768x64_2_1_1_2_0_0 : DotDims S27x32768x64 S27x64x64 S27x32768x64 where
  lhsContracting := [2]
  rhsContracting := [1]
  lhsNonContracting := [1]
  rhsNonContracting := [2]
  lhsBatch := [0]
  rhsBatch := [0]
  wf := dot_S27x32768x64_S27x64x64_S27x32768x64_2_1_1_2_0_0_wf
def scatter_S131072x64_S884736x1_S884736x64_1_0_0_1 : ScatterDims S131072x64 S884736x1 S884736x64 where
  updateWindowDims := [1]
  insertedWindowDims := [0]
  scatterDimsToOperandDims := [0]
  indexVectorDim := 1
  wf := scatter_S131072x64_S884736x1_S884736x64_1_0_0_1_wf

class Facts : Prop extends Facts₀ where

variable [Facts]
-- ==== Proof.Products.lean ====
/-
  The per-offset products of a sparse convolution, as one function of its two operands.

  For every kernel offset `k` (27 of them), every pair slot `p` (32768 per offset) and every output channel `o`
  (64), the product is the sum over the 64 input channels `i` of the gathered row's entry `a[k, p, i]` times the
  offset's weight `b[k, i, o]`: a batch of 27 independent [32768, 64] × [64, 64] matrix products. Stated over the
  extended reals, where a sum over a finite index set does not depend on how it is blocked or ordered.
-/
import Idealize.ShloMosaic.Lib.ValueIdx
import Idealize.ShloMosaic.PureOps.Ideal

noncomputable section

namespace Cert.SparseConv

open Idealize.ShloMosaic Idealize.ShloMosaic.ValueIdx

/-- One entry of offset `k`'s product: row `p` of the gathered rows against column `o` of the offset's weights. -/
def productAt (a : (⟨3, ![27, 32768, 64]⟩ : Shape).Idx → EReal) (b : (⟨3, ![27, 64, 64]⟩ : Shape).Idx → EReal)
    (k : Fin 27) (p : Fin 32768) (o : Fin 64) : EReal :=
  ∑ i : Fin 64, a (ix3 k p i) * b (ix3 k i o)

/-- All 27 products, index by index. -/
def offsetProducts (a : (⟨3, ![27, 32768, 64]⟩ : Shape).Idx → EReal) (b : (⟨3, ![27, 64, 64]⟩ : Shape).Idx → EReal) :
    (⟨3, ![27, 32768, 64]⟩ : Shape).Idx → EReal :=
  fun j => productAt a b (j 0) (j 1) (j 2)

theorem offsetProducts_ix3 (a : (⟨3, ![27, 32768, 64]⟩ : Shape).Idx → EReal) (b : (⟨3, ![27, 64, 64]⟩ : Shape).Idx → EReal)
    (k : Fin 27) (p : Fin 32768) (o : Fin 64) :
    offsetProducts a b (ix3 k p o) = ∑ i : Fin 64, a (ix3 k p i) * b (ix3 k i o) := rfl

end Cert.SparseConv

end
-- ==== Proof.Shared.lean ====
/-
  The two programs around the products.

  Both programs do the same things around the 27 per-offset products: before them, they gather the feature rows the
  input map names (an entry below zero reads row 0 and its row is then multiplied by zero); after them, they
  scatter-add the product rows into a zero array at the rows the output map names (an entry whose input-map entry is
  below zero goes to row 0, where it adds the zero row) and add the bias to every row. Only the products are computed
  differently. This module names the part after the products as one function of the products, and says that the
  reference's result is that function of the products of the gathered rows and the weights, where the reference's
  batched contraction read at an index is the sum over the 64 input channels.
-/
import proofs.«181051_j44040594653251_1_alg».proof.Proof.Gen.ReferenceIdeal.Run
import proofs.«181051_j44040594653251_1_alg».proof.Proof.Gen.ReferenceIdeal.Read
import proofs.«181051_j44040594653251_1_alg».proof.Proof.Products

set_option maxRecDepth 16384

noncomputable section

namespace Cert.SparseConv

open Cert.ReferenceIdeal Cert.ReferenceIdeal.Gen Cert.ReferenceIdeal.Read Idealize.ShloMosaic Idealize.ShloMosaic.TcCoe
open Idealize.ShloMosaic.ValueIdx

/-- The part after the products: the product rows `y` scatter-added into zeros at the rows the output map `x4` names
    where the validity mask `v1` is set and at row 0 elsewhere, then the bias `x2` added to every row. -/
def scattered (y : (⟨S27x32768x64, .f32⟩ : BufTy).Contents (Elt Ideal)) (v1 : (⟨S27x32768, .i1⟩ : BufTy).Contents (Elt Ideal))
    (x2 : (⟨S64, .f32⟩ : BufTy).Contents (Elt Ideal)) (x4 : (⟨S27x32768, .i32⟩ : BufTy).Contents (Elt Ideal)) :
    (⟨S131072x64, .f32⟩ : BufTy).Contents (Elt Ideal) :=
  addf (F := Ideal) (φ := .f32) (Host.scatterAdd (F := Ideal) scatter_S131072x64_S884736x1_S884736x64_1_0_0_1 (val_main_v17 (F := Ideal))
      (broadcastInDim S884736x1 ![0] bcast_S884736_S884736x1_0
        (select (cmpi .slt (shapeCast _ (select v1 x4 (val_main_call1_v1 (F := Ideal))) shapeCasts_S27x32768_S884736) (val_main_v19 (F := Ideal)))
          (addi (shapeCast _ (select v1 x4 (val_main_call1_v1 (F := Ideal))) shapeCasts_S27x32768_S884736) (val_main_v21 (F := Ideal)))
          (shapeCast _ (select v1 x4 (val_main_call1_v1 (F := Ideal))) shapeCasts_S27x32768_S884736)))
      (shapeCast _ y shapeCasts_S27x32768x64_S884736x64))
    (val_main_v27 (F := Ideal) x2)

/-- The reference's batched contraction is the 27 products. -/
theorem contraction_eq (x0 : (⟨S131072x64, .f32⟩ : BufTy).Contents (Elt Ideal)) (x1 : (⟨S27x64x64, .f32⟩ : BufTy).Contents (Elt Ideal))
    (x3 : (⟨S27x32768, .i32⟩ : BufTy).Contents (Elt Ideal)) :
    val_main_v14 (F := Ideal) x0 x1 x3 = offsetProducts (val_main_v13 (F := Ideal) x0 x3) x1 := by
  funext j
  rw [val_main_v14_apply]
  obtain ⟨k, p, o, rfl⟩ : ∃ (k : Fin 27) (p : Fin 32768) (o : Fin 64), j = ix3 k p o := ⟨j 0, j 1, j 2, eq_ix3 j⟩
  rw [offsetProducts_ix3]
  refine Finset.sum_congr rfl fun i _ => ?_
  have el : lidx_main_v14 (ix3 k p o) i = ix3 k p i := funext fun a => Fin.ext (by
    match a with
    | ⟨0, _⟩ => rfl
    | ⟨1, _⟩ => rfl
    | ⟨2, _⟩ => rfl)
  have er : ridx_main_v14 (ix3 k p o) i = ix3 k i o := funext fun a => Fin.ext (by
    match a with
    | ⟨0, _⟩ => rfl
    | ⟨1, _⟩ => rfl
    | ⟨2, _⟩ => rfl)
  rw [el, er]

/-- The reference's result is the shared part after the products, of the products of the gathered rows and the weights. -/
theorem reference_eq (x0 : (⟨S131072x64, .f32⟩ : BufTy).Contents (Elt Ideal)) (x1 : (⟨S27x64x64, .f32⟩ : BufTy).Contents (Elt Ideal))
    (x2 : (⟨S64, .f32⟩ : BufTy).Contents (Elt Ideal)) (x3 x4 : (⟨S27x32768, .i32⟩ : BufTy).Contents (Elt Ideal)) :
    val_main_v28 (F := Ideal) x0 x1 x2 x3 x4
      = scattered (offsetProducts (val_main_v13 (F := Ideal) x0 x3) x1) (val_main_v1 (F := Ideal) x3) x2 x4 := by
  rw [← contraction_eq]
  rfl

end Cert.SparseConv

end
-- ==== Proof.KernelBlocks.lean ====
/-
  What the pallas_call leaves in its result array, at the ideal instance.

  The call has one grid point per kernel offset `k` (27 points). At point `k` the body reads block `k` of the
  gathered rows (a [1, 32768, 64] slab) and block `k` of the weights (a [1, 64, 64] slab), drops the unit axis,
  multiplies them on the matrix unit into a zero accumulator, and stores the [32768, 64] product back under the
  unit axis as block `k` of the result. At the ideal instance the matrix product into a zero accumulator is the
  plain sum over the 64 input channels, so block `k` of the result is offset `k`'s product, and as the 27
  blocks tile the result array, the array after the call is all 27 products.
-/
import proofs.«181051_j44040594653251_1_alg».proof.Proof.Gen.KernelIdeal.Frame
import proofs.«181051_j44040594653251_1_alg».proof.Proof.Products
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Pipeline Cert.SparseConv

/-! ## The matrix unit's operand indices -/

theorem lhs_axis0 (j : S32768x64.Idx) (q : dot_S32768x64_S64x64_S32768x64_1_0_0_1_n_n.contr.Idx) :
    (dot_S32768x64_S64x64_S32768x64_1_0_0_1_n_n.lhsIdx j q 0).val = (j 0).val := by
  unfold DotDims.lhsIdx
  rw [dif_neg (show ¬(0 : Fin S32768x64.rank) ∈ dot_S32768x64_S64x64_S32768x64_1_0_0_1_n_n.lhsBatch by decide), dif_pos (show (0 : Fin S32768x64.rank) ∈ dot_S32768x64_S64x64_S32768x64_1_0_0_1_n_n.lhsNonContracting by decide)]
  rfl
theorem lhs_axis1 (j : S32768x64.Idx) (q : dot_S32768x64_S64x64_S32768x64_1_0_0_1_n_n.contr.Idx) :
    (dot_S32768x64_S64x64_S32768x64_1_0_0_1_n_n.lhsIdx j q 1).val = (q ⟨0, by decide⟩).val :=
  dot_S32768x64_S64x64_S32768x64_1_0_0_1_n_n.lhsIdx_val_of_single rfl j q
theorem rhs_axis0 (j : S32768x64.Idx) (q : dot_S32768x64_S64x64_S32768x64_1_0_0_1_n_n.contr.Idx) :
    (dot_S32768x64_S64x64_S32768x64_1_0_0_1_n_n.rhsIdx j q 0).val = (q ⟨0, by decide⟩).val :=
  dot_S32768x64_S64x64_S32768x64_1_0_0_1_n_n.rhsIdx_val_of_single rfl j q
theorem rhs_axis1 (j : S32768x64.Idx) (q : dot_S32768x64_S64x64_S32768x64_1_0_0_1_n_n.contr.Idx) :
    (dot_S32768x64_S64x64_S32768x64_1_0_0_1_n_n.rhsIdx j q 1).val = (j 1).val := by
  unfold DotDims.rhsIdx
  rw [dif_neg (show ¬(1 : Fin S64x64.rank) ∈ dot_S32768x64_S64x64_S32768x64_1_0_0_1_n_n.rhsBatch by decide), dif_pos (show (1 : Fin S64x64.rank) ∈ dot_S32768x64_S64x64_S32768x64_1_0_0_1_n_n.rhsNonContracting by decide)]
  rfl

/-! ## The body's product at an index -/

/-- The stored value at row `p`, channel `o` of the slab is the sum over the input channels of the loaded row
    slab's entry times the loaded weight slab's entry. -/
theorem stored_apply (x0 : Vec Ideal S1x32768x64 .bf16) (x1 : Vec Ideal S1x64x64 .bf16) (z : Fin 1) (p : Fin 32768) (o : Fin 64) :
    k0_pay1 (F := Ideal) x0 x1 (ix3 z p o) = ∑ i : Fin 64, x0 (ix3 (0 : Fin 1) p i) * x1 (ix3 (0 : Fin 1) i o) := by
  unfold k0_pay1
  refine (shapeCast_addUnit_apply ![32768, 64] _ _ (ix3 z p o)).trans ?_
  refine (Ideal.matmul_constant_zero_apply dot_S32768x64_S64x64_S32768x64_1_0_0_1_n_n none _ _ _).trans ?_
  rw [← Equiv.sum_comp (contrEquiv1 dot_S32768x64_S64x64_S32768x64_1_0_0_1_n_n 64 rfl rfl).symm]
  refine Finset.sum_congr rfl fun k _ => ?_
  have hk := contrEquiv1_symm_val dot_S32768x64_S64x64_S32768x64_1_0_0_1_n_n 64 rfl rfl k
  have el : shapeCast S32768x64 x0 shapeCasts_S1x32768x64_S32768x64
      (dot_S32768x64_S64x64_S32768x64_1_0_0_1_n_n.lhsIdx (fun a => ix3 z p o a.succ) ((contrEquiv1 dot_S32768x64_S64x64_S32768x64_1_0_0_1_n_n 64 rfl rfl).symm k)) = x0 (ix3 (0 : Fin 1) p k) := by
    refine (shapeCast_dropUnit_apply ![32768, 64] x0 _ _).trans (congrArg x0 ?_)
    funext a; apply Fin.ext
    match a with
    | ⟨0, _⟩ => rfl
    | ⟨1, _⟩ => exact lhs_axis0 _ _
    | ⟨2, _⟩ => exact (lhs_axis1 (fun a => ix3 z p o a.succ) _).trans hk
  have er : shapeCast S64x64 x1 shapeCasts_S1x64x64_S64x64
      (dot_S32768x64_S64x64_S32768x64_1_0_0_1_n_n.rhsIdx (fun a => ix3 z p o a.succ) ((contrEquiv1 dot_S32768x64_S64x64_S32768x64_1_0_0_1_n_n 64 rfl rfl).symm k)) = x1 (ix3 (0 : Fin 1) k o) := by
    refine (shapeCast_dropUnit_apply ![64, 64] x1 _ _).trans (congrArg x1 ?_)
    funext a; apply Fin.ext
    match a with
    | ⟨0, _⟩ => rfl
    | ⟨1, _⟩ => exact (rhs_axis0 (fun a => ix3 z p o a.succ) _).trans hk
    | ⟨2, _⟩ => exact rhs_axis1 _ _
  rw [el, er]

/-! ## The blocks' places in their arrays -/

variable (m : (ℓ : Loc nD τ sig) → Buf (Elt Ideal) ℓ)

theorem zeros3 : (![0, 0, 0] : Fin 3 → Nat) = fun _ => 0 := funext fun a => by fin_cases a <;> rfl

/-- The printed index maps, decided over the grid: at point `t` every window is at block `t` along the offset
    axis and at block 0 along the other two. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Point `t` as an offset. -/
def offsetOf (t : Fin cfg0.N) : Fin 27 := ⟨t.val, lt_of_lt_of_eq t.isLt N_0⟩

/-- The row slab the body loads at point `t` is slab `t` of the gathered rows as the call finds them. -/
theorem rows_read (c : Dev nD) (t : Fin cfg0.N) (p : Fin 32768) (i : Fin 64) :
    iblk m c 0 t (ix3 (0 : Fin 1) p i) = V m c main_v14 (ix3 (offsetOf t) p i) := by
  show V m c main_v14 (((cfg0.win 0).blk t).view.emb (ix3 (0 : Fin 1) p i)) = V m c main_v14 (ix3 (offsetOf t) p i)
  obtain ⟨e0, e1, e2, -⟩ := index_facts t
  refine congrArg (V m c main_v14) ?_
  funext a; apply Fin.ext
  match a with
  | ⟨0, _⟩ => show win0_0.index t (0 : Fin 3) * 1 + 1 * 0 = t.val; omega
  | ⟨1, _⟩ => show win0_0.index t (1 : Fin 3) * 32768 + 1 * p.val = p.val; omega
  | ⟨2, _⟩ => show win0_0.index t (2 : Fin 3) * 64 + 1 * i.val = i.val; omega

/-- The weight slab the body loads at point `t` is slab `t` of the weights as the call finds them. -/
theorem weights_read (c : Dev nD) (t : Fin cfg0.N) (i : Fin 64) (o : Fin 64) :
    iblk m c 1 t (ix3 (0 : Fin 1) i o) = V m c main_v15 (ix3 (offsetOf t) i o) := by
  show V m c main_v15 (((cfg0.win 1).blk t).view.emb (ix3 (0 : Fin 1) i o)) = V m c main_v15 (ix3 (offsetOf t) i o)
  obtain ⟨-, -, -, e0, e1, e2, -⟩ := index_facts t
  refine congrArg (V m c main_v15) ?_
  funext a; apply Fin.ext
  match a with
  | ⟨0, _⟩ => show win0_1.index t (0 : Fin 3) * 1 + 1 * 0 = t.val; omega
  | ⟨1, _⟩ => show win0_1.index t (1 : Fin 3) * 64 + 1 * i.val = i.val; omega
  | ⟨2, _⟩ => show win0_1.index t (2 : Fin 3) * 64 + 1 * o.val = o.val; omega

/-! ## What each point writes back, and the array after the call -/

/-- What point `t` writes back is block `t` of the 27 products of the two operand arrays as the call finds them. -/
theorem flushed_eq (c : Dev nD) (t : Fin cfg0.N) :
    (dats m 0 c).flushed 2 t
      = ((cfg0.win 2).blk t).view.read (Elt Ideal) (offsetProducts (V m c main_v14) (V m c main_v15)) := by
  show (cfg0.win 2).cut (grid0.coords t) ((dats m 0 c).after 2 t) = _
  rw [after0_2]
  unfold out0_2
  rw [View.canon_unit_zero zeros3]
  simp only [View.ld_unit_zero (S := S1x32768x64) zeros3, View.ld_unit_zero (S := S1x64x64) zeros3]
  funext j
  obtain ⟨z, p, o, rfl⟩ : ∃ (z : Fin 1) (p : Fin 32768) (o : Fin 64), j = ix3 z p o := ⟨j 0, j 1, j 2, eq_ix3 j⟩
  have hout : ((cfg0.win 2).blk t).view.emb (ix3 z p o) = ix3 (offsetOf t) p o := by
    obtain ⟨-, -, -, -, -, -, e0, e1, e2⟩ := index_facts t
    funext a; apply Fin.ext
    have hz : z.val = 0 := by have := z.isLt; omega
    match a with
    | ⟨0, _⟩ => show win0_2.index t (0 : Fin 3) * 1 + 1 * z.val = t.val; omega
    | ⟨1, _⟩ => show win0_2.index t (1 : Fin 3) * 32768 + 1 * p.val = p.val; omega
    | ⟨2, _⟩ => show win0_2.index t (2 : Fin 3) * 64 + 1 * o.val = o.val; omega
  show k0_pay1 (F := Ideal) (iblk m c 0 t) (iblk m c 1 t) (ix3 z p o)
    = offsetProducts (V m c main_v14) (V m c main_v15) (((cfg0.win 2).blk t).view.emb (ix3 z p o))
  rw [hout]
  refine (stored_apply (iblk m c 0 t) (iblk m c 1 t) z p o).trans ?_
  refine ((offsetProducts_ix3 (V m c main_v14) (V m c main_v15) (offsetOf t) p o).trans ?_).symm
  refine Finset.sum_congr rfl fun i _ => ?_
  rw [rows_read m c t p i, weights_read m c t i o]

/-- An index of the result array is in point `t`'s block iff each coordinate is in the block's range on its axis. -/
theorem mem_block (t : Fin cfg0.N) (i : S27x32768x64.Idx) :
    i ∈ ((cfg0.win 2).blk t).view.set ↔ ∀ a : Fin 3, win0_2.index t a * S1x32768x64.size a ≤ (i a).val ∧ (i a).val < win0_2.index t a * S1x32768x64.size a + S1x32768x64.size a := by
  show i ∈ ((View.whole main_v16).slice (win0_2.rect t)).set ↔ _
  rw [View.set_slice_whole, Rect.mem_set_unit]
  exact Iff.rfl

/-- Every index of the result array lies in the block of the point that is its offset coordinate. -/
theorem covered (i : S27x32768x64.Idx) :
    ∃ t : Fin cfg0.N, (cfg0.win 2).flush t = true ∧ i ∈ ((cfg0.win 2).blk t).view.set := by
  have h0 : (i 0).val < 27 := (i 0).isLt
  have h1 : (i 1).val < 32768 := (i 1).isLt
  have h2 : (i 2).val < 64 := (i 2).isLt
  refine ⟨⟨(i 0).val, lt_of_lt_of_eq h0 N_0.symm⟩, flush0_2 _, ?_⟩
  rw [mem_block]
  obtain ⟨-, -, -, -, -, -, e0, e1, e2⟩ := index_facts ⟨(i 0).val, lt_of_lt_of_eq h0 N_0.symm⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 32768 ≤ (i 1).val ∧ (i 1).val < win0_2.index _ (1 : Fin 3) * 32768 + 32768; rw [e1]; omega
  | ⟨2, _⟩ => show win0_2.index _ (2 : Fin 3) * 64 ≤ (i 2).val ∧ (i 2).val < win0_2.index _ (2 : Fin 3) * 64 + 64; rw [e2]; omega

/-- The result array after the call: the 27 products of the two operand arrays as the call finds them. -/
theorem products_after (c : Dev nD) :
    (dats m 0 c).arrAt 2 cfg0.N = offsetProducts (V m c main_v14) (V m c main_v15) :=
  (dats m 0 c).arrAt_eq_of_cover 2 (offsetProducts (V m c main_v14) (V m c main_v15)) (fun t _ => flushed_eq m c t) covered

end Cert.KernelIdeal.Blocks

end
-- ==== Proof.KernelHost.lean ====
/-
  The idealized kernel's host lines around its pallas_call, at the ideal instance.

  Before the call the program computes the validity mask of the input map, gathers and masks the feature rows, and
  narrows the rows and the weights to bf16, which at the ideal instance changes nothing. So the call finds, as
  its two operands, the gathered rows and the weights. After the call the program scatter-adds the call's result
  rows and adds the bias: the shared part after the products, applied to whatever the call left in its result array.
-/
import proofs.«181051_j44040594653251_1_alg».proof.Proof.Gen.KernelIdeal.Frame
import proofs.«181051_j44040594653251_1_alg».proof.Proof.Shared
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.Pipeline Cert.SparseConv

variable (m : (ℓ : Loc nD τ sig) → Buf (Elt Ideal) ℓ)

set_option maxHeartbeats 2000000 in
/-- The call's first operand, as the call finds it: the gathered, masked feature rows. -/
theorem rows_found (c : Dev nD) :
    (V m c main_v14 : S27x32768x64.Idx → EReal)
      = Cert.ReferenceIdeal.Read.val_main_v13 (F := Ideal) (m ((c : Thread nD τ).loc main_arg0)) (m ((c : Thread nD τ).loc main_arg3)) := by
  dsimp only [Gen.V, Gen.V0]
  simp only [Gen.hostOps0, Gen.hostOps0_1, Gen.hostOps0_2, List.flatten_cons, List.flatten_nil, List.append_nil, List.cons_append,
    List.nil_append]
  after_results_simp
  rfl

/-- The call's second operand, as the call finds it: the weights. -/
theorem weights_found (c : Dev nD) :
    (V m c main_v15 : S27x64x64.Idx → EReal) = m ((c : Thread nD τ).loc main_arg1) := by
  dsimp only [Gen.V, Gen.V0]
  simp only [Gen.hostOps0, Gen.hostOps0_1, Gen.hostOps0_2, List.flatten_cons, List.flatten_nil, List.append_nil, List.cons_append,
    List.nil_append]
  after_results
  rfl

set_option maxHeartbeats 2000000 in
/-- The validity mask, as the lines after the call find it. -/
theorem mask_found (c : Dev nD) :
    V m c main_v1 = Cert.ReferenceIdeal.Read.val_main_v1 (F := Ideal) (m ((c : Thread nD τ).loc main_arg3)) := by
  dsimp only [Gen.V, Gen.V0]
  simp only [Gen.hostOps0, Gen.hostOps0_1, Gen.hostOps0_2, List.flatten_cons, List.flatten_nil, List.append_nil, List.cons_append,
    List.nil_append]
  after_results_simp
  rfl

set_option maxHeartbeats 2000000 in
/-- The lines after the call, from any contents: the program's result is the shared part after the products, of the
    call's result array, the mask, the bias and the output map as those lines find them. -/
theorem after_call (W : Valuation τ sig (Elt Ideal)) :
    StableHlo.after (List.flatten [hostOps1, hostOps1_1, hostOps1_2]) W (Proc.devRef .tc main_v30)
      = scattered (W (Proc.devRef .tc main_v16)) (W (Proc.devRef .tc main_v1)) (W (Proc.devRef .tc main_arg2)) (W (Proc.devRef .tc main_arg4)) := by
  simp only [Gen.hostOps1, Gen.hostOps1_1, Gen.hostOps1_2, List.flatten_cons, List.flatten_nil, List.append_nil, List.cons_append,
    List.nil_append]
  after_results_simp
  rfl

end Cert.KernelIdeal.Host

end
-- ==== Proof.KernelResult.lean ====
/-
  The idealized kernel's run, with its result named.

  The call's result array ends as the 27 products of the gathered rows and the weights; the lines after the call turn
  it into the program's result by the shared part after the products. So the program's result is that shared part of
  the products of the gathered rows and the weights: the same function of the arguments as the reference's.
-/
import proofs.«181051_j44040594653251_1_alg».proof.Proof.KernelBlocks
import proofs.«181051_j44040594653251_1_alg».proof.Proof.KernelHost

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline Cert.SparseConv Cert.KernelIdeal.Blocks Cert.KernelIdeal.Host

variable (m : (ℓ : Loc nD τ sig) → Buf (Elt Ideal) ℓ) (ρ : Dev nD → PrngReg)

/-- The program's result as one function of the argument arrays: the shared part after the products, of the products
    of the gathered rows and the weights, the validity mask, the bias and the output map. -/
def value (c : Dev nD) : Buf (Elt Ideal) ((c.tc : Thread nD τ).loc main_v30) :=
  scattered
    (offsetProducts
      (Cert.ReferenceIdeal.Read.val_main_v13 (F := Ideal) (m ((c : Thread nD τ).loc main_arg0)) (m ((c : Thread nD τ).loc main_arg3)))
      (m ((c : Thread nD τ).loc main_arg1)))
    (Cert.ReferenceIdeal.Read.val_main_v1 (F := Ideal) (m ((c : Thread nD τ).loc main_arg3)))
    (m ((c : Thread nD τ).loc main_arg2)) (m ((c : Thread nD τ).loc main_arg4))

/-- The shared part after the products respects equality of its four operands. -/
theorem scattered_congr {y y' : (⟨Cert.ReferenceIdeal.S27x32768x64, .f32⟩ : BufTy).Contents (Elt Ideal)}
    {v v' : (⟨Cert.ReferenceIdeal.S27x32768, .i1⟩ : BufTy).Contents (Elt Ideal)}
    {b b' : (⟨Cert.ReferenceIdeal.S64, .f32⟩ : BufTy).Contents (Elt Ideal)}
    {o o' : (⟨Cert.ReferenceIdeal.S27x32768, .i32⟩ : BufTy).Contents (Elt Ideal)}
    (hy : y = y') (hv : v = v') (hb : b = b') (ho : o = o') : scattered y v b o = scattered y' v' b' o' := by
  rw [hy, hv, hb, ho]

/-- What the lines after the call leave in the result buffer is the program's value. -/
theorem tail_eq (c : Dev nD) :
    Pipeline.afterTail₀ cfgs (dats m) 0 (V0 m) [hostOps1, hostOps1_1, hostOps1_2] c main_v30 = value m c := by
  unfold Pipeline.afterTail₀
  refine (after_call _).trans ?_
  unfold value
  refine scattered_congr ?_ ?_ ?_ ?_
  · refine (Pipeline.withArrays_arr spec0 launch0.win.arr_inj c _ _ 2).trans ?_
    refine (products_after m c).trans ?_
    rw [rows_found m c, weights_found m c]
  · refine (Pipeline.withArrays_of_ne _ c (V0 m c) _ main_v1 (by exact (by decide : ∀ w, Pipeline.arrRef spec0 w ≠ main_v1))).trans ?_
    exact mask_found m c
  · refine (Pipeline.withArrays_of_ne _ c (V0 m c) _ main_arg2 (by exact (by decide : ∀ w, Pipeline.arrRef spec0 w ≠ main_arg2))).trans ?_
    exact V_main_arg2 m c
  · refine (Pipeline.withArrays_of_ne _ c (V0 m c) _ main_arg4 (by exact (by decide : ∀ w, Pipeline.arrRef spec0 w ≠ main_arg4))).trans ?_
    exact V_main_arg4 m c

/-- Every weakly fair execution of the idealized kernel's program terminates with its result at the program's value
    and its arguments unchanged. -/
theorem run : θ_run defs (onTc (τ := τ) (main (F := Ideal))) ⟨m, fun _ => 0, ρ⟩ fun r => ∀ c : Dev nD,
      r.2.mem ((c.tc : Thread nD τ).loc main_v30) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  A sparse 3×3×3 convolution over 131072 voxels with 64 channels in and out: for each of the 27 kernel offsets, the
  feature rows the input map names are gathered (a pair whose input-map entry is negative contributes a zero row),
  multiplied by the offset's 64×64 weights, and scatter-added into the output rows the output map names; the bias
  is added to every row.

  The kernel and the reference differ only in how the 27 products are computed. The reference contracts the
  gathered rows [27, 32768, 64] with the weights [27, 64, 64] in one batched contraction. The kernel narrows both
  operands to bf16 and runs a pallas_call with one grid point per offset, each multiplying one [32768, 64] slab by one
  [64, 64] slab on the matrix unit into a zero accumulator. Over the extended reals the narrowing is the identity
  and both products are, entry by entry, the sum over the 64 input channels of row entry times weight entry; the
  kernel's 27 result blocks tile its result array. Gathering before and scatter-adding after are the same operations
  of the same operands in both programs, so the results agree, with no use of the inputs' finiteness.

  The frames of the two kernel programs are the generated frame certificates; the reference's frame is its generated
  run with the result dropped; the ideal pass rewrote nothing, so there is nothing to preserve.
-/
import proofs.«181051_j44040594653251_1_alg».proof.Defs
import proofs.«181051_j44040594653251_1_alg».proof.Proof.Gen.Kernel
import proofs.«181051_j44040594653251_1_alg».proof.Proof.Gen.Kernel.Skeleton
import proofs.«181051_j44040594653251_1_alg».proof.Proof.Gen.Kernel.Launch
import proofs.«181051_j44040594653251_1_alg».proof.Proof.Gen.Kernel.Points
import proofs.«181051_j44040594653251_1_alg».proof.Proof.Gen.Kernel.Frame
import proofs.«181051_j44040594653251_1_alg».proof.Proof.Gen.KernelIdeal
import proofs.«181051_j44040594653251_1_alg».proof.Proof.Gen.KernelIdeal.Skeleton
import proofs.«181051_j44040594653251_1_alg».proof.Proof.Gen.KernelIdeal.Launch
import proofs.«181051_j44040594653251_1_alg».proof.Proof.Gen.KernelIdeal.Points
import proofs.«181051_j44040594653251_1_alg».proof.Proof.Gen.KernelIdeal.Frame
import proofs.«181051_j44040594653251_1_alg».proof.Proof.Gen.ReferenceIdeal
import proofs.«181051_j44040594653251_1_alg».proof.Proof.Gen.ReferenceIdeal.Run
import proofs.«181051_j44040594653251_1_alg».proof.Proof.Gen.ReferenceIdeal.Read
import proofs.«181051_j44040594653251_1_alg».proof.Proof.Gen.Pre_finite_inputs
import proofs.«181051_j44040594653251_1_alg».proof.Proof.Shared
import proofs.«181051_j44040594653251_1_alg».proof.Proof.KernelResult
import Idealize.ShloMosaic.Adequacy
import Idealize.ShloMosaic.Init

set_option maxRecDepth 16384

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- Both programs end with the shared part after the products, of the 27 products of the gathered rows and the
    weights: the kernel's by its blocks, the reference's by its batched contraction read at an index. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v28_eq _ _ _ _ _)).trans ?_
  refine (Cert.SparseConv.reference_eq _ _ _ _ _).trans ?_
  obtain ⟨h0, h1, h2, h3, h4⟩ := hagree c
  rw [h0, h1, h2, h3, h4]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
